-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S8192x81 : Shape := ⟨2, ![8192, 81]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel

variable [Facts]

def fn {F : FTy → Type} [FloatOps F] (main_arg0 : FVec F S8192x16 .f32) (main_arg1 : FVec F S8192x16 .f32) (main_arg2 : FVec F S8192x16 .f32) (main_arg3 : IVec S8192x81 32) (main_arg4 : IVec S8192x81 32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  main_v13
-- ==== Kernel.lean ====
abbrev S8192x16 : Shape := ⟨2, ![8192, 16]⟩
abbrev S8192x81 : Shape := ⟨2, ![8192, 81]⟩
abbrev S1x1 : Shape := ⟨2, ![1, 1]⟩
abbrev S1024x16 : Shape := ⟨2, ![1024, 16]⟩
abbrev S1024x81 : Shape := ⟨2, ![1024, 81]⟩
abbrev S16x1024 : Shape := ⟨2, ![16, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S81x1024 : Shape := ⟨2, ![81, 1024]⟩
abbrev S8192 : Shape := ⟨1, ![8192]⟩
abbrev S8192x1 : Shape := ⟨2, ![8192, 1]⟩
abbrev S_ : Shape := ⟨0, ![]⟩

abbrev nBuf : Space → Nat
  | .hbm => 20
  | .vmem => 15
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x81, .i32⟩
  | .hbm, ⟨4, _⟩ => ⟨S8192x81, .i32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x81, .i32⟩
  | .local _ .vmem, ⟨5, _⟩ => ⟨S1024x81, .i32⟩
  | .local _ .vmem, ⟨6, _⟩ => ⟨S1024x81, .i32⟩
  | .local _ .vmem, ⟨7, _⟩ => ⟨S1024x81, .i32⟩
  | .local _ .vmem, ⟨8, _⟩ => ⟨S1x1, .f32⟩
  | .local _ .vmem, ⟨9, _⟩ => ⟨S1x1, .f32⟩
  | .local _ .vmem, ⟨10, _⟩ => ⟨S8192x16, .f32⟩
  | .local _ .vmem, ⟨11, _⟩ => ⟨S8192x16, .f32⟩
  | .local _ .vmem, ⟨12, _⟩ => ⟨S8192x16, .f32⟩
  | .local _ .vmem, ⟨13, _⟩ => ⟨S1x1, .f32⟩
  | .local _ .vmem, ⟨14, _⟩ => ⟨S1x1, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x81 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x81 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x1_S1x1_0_0 : ∀ a, (![0, 0] : Fin 2 → Nat) a + S1x1.size a ≤ S1x1.size a
  h_S1x1 : 0 < S1x1.numel
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  transposes_S1024x16_p1_0_S16x1024 : S1024x16.Transposes [1, 0] S16x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1024x81_S1024x81_0_0 : ∀ a, (![0, 0] : Fin 2 → Nat) a + S1024x81.size a ≤ S1024x81.size a
  h_S1024x81 : 0 < S1024x81.numel
  transposes_S1024x81_p1_0_S81x1024 : S1024x81.Transposes [1, 0] S81x1024
  shapeCasts_S1x1_S1x1 : S1x1.ShapeCasts S1x1
  inb_S8192x16_S8192x16_0_0 : ∀ a, (![0, 0] : Fin 2 → Nat) a + S8192x16.size a ≤ S8192x16.size a
  h_S8192x16 : 0 < S8192x16.numel
  reduces_S8192x16_S8192 : S8192x16.Reduces [1] S8192
  shapeCasts_S8192_S8192x1 : S8192.ShapeCasts S8192x1
  reduces_S8192x1_S1 : S8192x1.Reduces [0] S1
  shapeCasts_S1x1_S_ : S1x1.ShapeCasts S_
  dot_S1024x16_S16x1024_S1024x1024_1_0_0_1_n_n_wf : DotDims.WF S1024x16 S16x1024 S1024x1024 [1] [0] [0] [1] [] []
  dot_S1024x81_S81x1024_S1024x1024_1_0_0_1_n_n_wf : DotDims.WF S1024x81 S81x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .f32 = 32 ∨ (Rect.block (s := S8192x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S8192x16.size a
  hwx0_1 : ∀ i : grid0.Coords, EltTy.bits .f32 = 32 ∨ (Rect.block (s := S8192x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x81.size a ≤ S8192x81.size a
  hwx0_2 : ∀ i : grid0.Coords, EltTy.bits .i32 = 32 ∨ (Rect.block (s := S8192x81) S1024x81.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x81.size a ≤ S8192x81.size a
  hwx0_3 : ∀ i : grid0.Coords, EltTy.bits .i32 = 32 ∨ (Rect.block (s := S8192x81) S1024x81.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S8192x16.size a
  hwx1_0 : ∀ i : grid1.Coords, EltTy.bits .f32 = 32 ∨ (Rect.block (s := S8192x16) S8192x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S8192x16.size a
  hwx1_1 : ∀ i : grid1.Coords, EltTy.bits .f32 = 32 ∨ (Rect.block (s := S8192x16) S8192x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S8192x16.size a
  hwx1_2 : ∀ i : grid1.Coords, EltTy.bits .f32 = 32 ∨ (Rect.block (s := S8192x16) S8192x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x81_S81x1024_S1024x1024_1_0_0_1_n_n : DotDims S1024x81 S81x1024 S1024x1024 where
  lhsContracting := [1]
  rhsContracting := [0]
  lhsNonContracting := [0]
  rhsNonContracting := [1]
  lhsBatch := []
  rhsBatch := []
  wf := dot_S1024x81_S81x1024_S1024x1024_1_0_0_1_n_n_wf

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x81.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x81.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S8192x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8192x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x16 : Shape := ⟨2, ![8192, 16]⟩
abbrev S8192x81 : Shape := ⟨2, ![8192, 81]⟩
abbrev S16x8192 : Shape := ⟨2, ![16, 8192]⟩
abbrev S8192x8192 : Shape := ⟨2, ![8192, 8192]⟩
abbrev S_ : Shape := ⟨0, ![]⟩
abbrev S81x8192 : Shape := ⟨2, ![81, 8192]⟩
abbrev S8192 : Shape := ⟨1, ![8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x16, .f32⟩
  | .hbm, ⟨2, _⟩ => ⟨S8192x16, .f32⟩
  | .hbm, ⟨3, _⟩ => ⟨S8192x81, .i32⟩
  | .hbm, ⟨4, _⟩ => ⟨S8192x81, .i32⟩
  | .hbm, ⟨5, _⟩ => ⟨S16x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .i1⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S8192x81, .f32⟩
  | .hbm, ⟨27, _⟩ => ⟨S8192x81, .f32⟩
  | .hbm, ⟨28, _⟩ => ⟨S81x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .i1⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_call1_v0 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_cst_6 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_v25 : Ref sig .tc := ⟨.hbm, 53, rfl⟩
abbrev main_cst_8 : Ref sig .tc := ⟨.hbm, 54, rfl⟩
abbrev main_v26 : Ref sig .tc := ⟨.hbm, 55, rfl⟩
abbrev main_v27 : Ref sig .tc := ⟨.hbm, 56, rfl⟩
abbrev main_cst_9 : Ref sig .tc := ⟨.hbm, 57, rfl⟩
abbrev main_v28 : Ref sig .tc := ⟨.hbm, 58, rfl⟩
abbrev main_v29 : Ref sig .tc := ⟨.hbm, 59, rfl⟩
abbrev main_cst_10 : Ref sig .tc := ⟨.hbm, 60, rfl⟩
abbrev main_v30 : Ref sig .tc := ⟨.hbm, 61, rfl⟩
abbrev main_v31 : Ref sig .tc := ⟨.hbm, 62, rfl⟩

abbrev nD : Nat := 1
abbrev τ : Topo := Topo.v7x

variable {F : FTy → Type} [FloatOps F]

class Facts₀ : Prop where
  transposes_S8192x16_S16x8192_1_0 : S8192x16.Transposes [1, 0] S16x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  transposes_S8192x81_S81x8192_1_0 : S8192x81.Transposes [1, 0] S81x8192
  reducesTo_S8192x16_S_d0_1 : S8192x16.ReducesTo [0, 1] S_
  reducesTo_S8192x16_S8192_d1 : S8192x16.ReducesTo [1] S8192
  reducesTo_S8192_S_d0 : S8192.ReducesTo [0] S_
  dot_S8192x16_S16x8192_S8192x8192_1_0_0_1_n_n_wf : DotDims.WF S8192x16 S16x8192 S8192x8192 [1] [0] [0] [1] [] []
  dot_S8192x81_S81x8192_S8192x8192_1_0_0_1_n_n_wf : DotDims.WF S8192x81 S81x8192 S8192x8192 [1] [0] [0] [1] [] []

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S8192x81_S81x8192_S8192x8192_1_0_0_1_n_n : DotDims S8192x81 S81x8192 S8192x8192 where
  lhsContracting := [1]
  rhsContracting := [0]
  lhsNonContracting := [0]
  rhsNonContracting := [1]
  lhsBatch := []
  rhsBatch := []
  wf := dot_S8192x81_S81x8192_S8192x8192_1_0_0_1_n_n_wf

class Facts : Prop extends Facts₀ where

variable [Facts]
-- ==== Proof.Pieces.lean ====
/-
  What each run of the first kernel's body leaves in its two [1,1] accumulators, and what the second kernel's body
  stores, as the body's own arithmetic terms of the blocks it loads.

  The first body, at the first grid point, resets each accumulator to zero, reads it back and stores "what it read plus
  this tile's sum"; at every later point it stores "what the accumulator held plus this tile's sum". The second body
  stores its two sums once. Each statement below reads the covering store back: the accumulator is one [1,1] block, the
  last store covers it, and every load reads a whole buffer.
-/
import proofs.«158205_j39221641347692_1_alg».proof.Proof.Gen.KernelIdeal.Frame
import Idealize.ShloMosaic.Lib.Pipeline.Value
import Idealize.ShloMosaic.Lib.Tactic

set_option maxRecDepth 16384

noncomputable section

namespace Cert.PairLoss

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A later point, first accumulator: what it held plus the tile's softplus sum. -/
theorem softplusAcc_later (c : Dev nD) (i : grid0.Coords) (a2 : Memref sig .tc .vmem S1024x16 .f32) (h2 : a2.IsWhole) (a3 : Memref sig .tc .vmem S1024x16 .f32) (h3 : a3.IsWhole) (a4 : Memref sig .tc .vmem S1024x81 .i32) (h4 : a4.IsWhole) (a5 : Memref sig .tc .vmem S1024x81 .i32) (h5 : a5.IsWhole) (a6 : Memref sig .tc .vmem S1x1 .f32) (h6 : a6.IsWhole) (a7 : Memref sig .tc .vmem S1x1 .f32) (h7 : a7.IsWhole) (hc : ¬cond0_0 i)
    (x0 x1 : Vec F S1024x16 .f32) (x2 x3 : Vec F S1024x81 .i32) (xo4 xo5 : Vec F S1x1 .f32) :
    out0_B_4 c i a2 h2 a3 h3 a4 h4 a5 h5 a6 h6 a7 h7 hc x0 x1 x2 x3 xo4 xo5 = k0_pay1 (k0_pay6 x0 x1) xo4 := by
  unfold out0_B_4
  rw [View.read_writes_eq_canon _ _ _ (cover0_B_4 c i a2 h2 a3 h3 a4 h4 a5 h5 a6 h6 a7 h7 hc x0 x1 x2 x3 xo4 xo5)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1024x16) hz, View.ld_unit_zero (S := S1024x81) hz, View.ld_unit_zero (S := S1x1) hz]

/-- A later point, second accumulator: what it held plus the tile's masked sum. -/
theorem maskedAcc_later (c : Dev nD) (i : grid0.Coords) (a2 : Memref sig .tc .vmem S1024x16 .f32) (h2 : a2.IsWhole) (a3 : Memref sig .tc .vmem S1024x16 .f32) (h3 : a3.IsWhole) (a4 : Memref sig .tc .vmem S1024x81 .i32) (h4 : a4.IsWhole) (a5 : Memref sig .tc .vmem S1024x81 .i32) (h5 : a5.IsWhole) (a6 : Memref sig .tc .vmem S1x1 .f32) (h6 : a6.IsWhole) (a7 : Memref sig .tc .vmem S1x1 .f32) (h7 : a7.IsWhole) (hc : ¬cond0_0 i)
    (x0 x1 : Vec F S1024x16 .f32) (x2 x3 : Vec F S1024x81 .i32) (xo4 xo5 : Vec F S1x1 .f32) :
    out0_B_5 c i a2 h2 a3 h3 a4 h4 a5 h5 a6 h6 a7 h7 hc x0 x1 x2 x3 xo4 xo5 = k0_pay2 (k0_pay5 x0 x1) (k0_pay7 x2 x3) k0_pay8 xo5 := by
  unfold out0_B_5
  rw [View.read_writes_eq_canon _ _ _ (cover0_B_5 c i a2 h2 a3 h3 a4 h4 a5 h5 a6 h6 a7 h7 hc x0 x1 x2 x3 xo4 xo5)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1024x16) hz, View.ld_unit_zero (S := S1024x81) hz, View.ld_unit_zero (S := S1x1) hz]

/-- The first point, first accumulator: the zero it was reset to plus the tile's softplus sum. -/
theorem softplusAcc_first (c : Dev nD) (i : grid0.Coords) (a2 : Memref sig .tc .vmem S1024x16 .f32) (h2 : a2.IsWhole) (a3 : Memref sig .tc .vmem S1024x16 .f32) (h3 : a3.IsWhole) (a4 : Memref sig .tc .vmem S1024x81 .i32) (h4 : a4.IsWhole) (a5 : Memref sig .tc .vmem S1024x81 .i32) (h5 : a5.IsWhole) (a6 : Memref sig .tc .vmem S1x1 .f32) (h6 : a6.IsWhole) (a7 : Memref sig .tc .vmem S1x1 .f32) (h7 : a7.IsWhole) (hc : cond0_0 i)
    (x0 x1 : Vec F S1024x16 .f32) (x2 x3 : Vec F S1024x81 .i32) :
    out0_A_4 c i a2 h2 a3 h3 a4 h4 a5 h5 a6 h6 a7 h7 hc x0 x1 x2 x3 = k0_pay1 (k0_pay6 x0 x1) k0_pay3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread, h7.read_unread, View.ld_unit_zero (S := S1024x16) hz, View.ld_unit_zero (S := S1024x81) hz, View.ld_unit_zero (S := S1x1) hz]

/-- The first point, second accumulator: the zero it was reset to plus the tile's masked sum. -/
theorem maskedAcc_first (c : Dev nD) (i : grid0.Coords) (a2 : Memref sig .tc .vmem S1024x16 .f32) (h2 : a2.IsWhole) (a3 : Memref sig .tc .vmem S1024x16 .f32) (h3 : a3.IsWhole) (a4 : Memref sig .tc .vmem S1024x81 .i32) (h4 : a4.IsWhole) (a5 : Memref sig .tc .vmem S1024x81 .i32) (h5 : a5.IsWhole) (a6 : Memref sig .tc .vmem S1x1 .f32) (h6 : a6.IsWhole) (a7 : Memref sig .tc .vmem S1x1 .f32) (h7 : a7.IsWhole) (hc : cond0_0 i)
    (x0 x1 : Vec F S1024x16 .f32) (x2 x3 : Vec F S1024x81 .i32) :
    out0_A_5 c i a2 h2 a3 h3 a4 h4 a5 h5 a6 h6 a7 h7 hc x0 x1 x2 x3 = k0_pay2 (k0_pay5 x0 x1) (k0_pay7 x2 x3) k0_pay8 k0_pay4 := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread, h7.read_unread, View.ld_unit_zero (S := S1024x16) hz, View.ld_unit_zero (S := S1024x81) hz, View.ld_unit_zero (S := S1x1) hz]

/-- The second kernel's first store: the quantization sum of the three whole arrays. -/
theorem quantStore (x0 x1 x2 : Vec F S8192x16 .f32) : out1_3 x0 x1 x2 = k1_pay1 x0 x1 x2 := by
  unfold out1_3
  rw [View.canon_unit_zero hz]
  simp only [View.ld_unit_zero (S := S8192x16) hz]

/-- The second kernel's second store: the two sums of squared row sums. -/
theorem balanceStore (x0 x1 x2 : Vec F S8192x16 .f32) : out1_4 x0 x1 x2 = k1_pay2 x0 x1 := by
  unfold out1_4
  rw [View.canon_unit_zero hz]
  simp only [View.ld_unit_zero (S := S8192x16) hz]

end Cert.PairLoss

end
-- ==== Proof.Spec.lean ====
/-
  The quantity both programs compute, as one function of the five argument arrays over the extended reals.

  For codes F, G, B : [8192, 16] and label words U, V : [8192, 81]:
    θ(a, c)   = ∑ₖ F(a, k) · G(c, k)                          the inner product of row a of F with row c of G
    o(a, c)   = ∑ₗ int U(a, l) · int V(c, l)                  the label overlap of samples a and c (words read signed)
    loss      = ( ∑ₐ ∑_c softplus(θ(a, c) / 2) − ∑ₐ ∑_c [o(a, c) > 0] θ(a, c) )
                + ½ ∑ₐ ∑ₖ ((B − F)² + (B − G)²)(a, k)
                + ½ ( ∑ₐ (∑ₖ F(a, k))² + ∑ₐ (∑ₖ G(a, k))² )
  with softplus(y) spelt max(y, 0) + log1p(exp(−|y − 0|)) and ½ the binary word 0x3F000000, exactly as both
  programs spell them. Nothing here is evaluated: the two sides meet at these terms syntactically.
-/
import Idealize.ShloMosaic.PureOps.Ideal
import Idealize.ShloMosaic.PureOps.Ideal.Laws
import Idealize.ShloMosaic.Lib.ValueIdx

noncomputable section

namespace Cert.PairLoss

open Idealize.ShloMosaic Idealize.ShloMosaic.ValueIdx

/-- An [8192, 16] array of extended reals: one 16-entry code per sample. -/
abbrev Codes := (⟨2, ![8192, 16]⟩ : Shape).Idx → EReal
/-- An [8192, 81] array of 32-bit words: 81 label words per sample. -/
abbrev Labels := (⟨2, ![8192, 81]⟩ : Shape).Idx → BitVec 32

/-- The factor ½, as the f32 word both programs print. -/
def half : EReal := Ideal.ofBits .f32 0x3F000000#32

/-- θ(a, c): the inner product of row a of f with row c of g. -/
def theta (f g : Codes) (a c : Fin 8192) : EReal := ∑ k : Fin 16, f (ix2 a k) * g (ix2 c k)

/-- o(a, c): the inner product of the label rows, each word read as a signed integer. -/
def overlap (u v : Labels) (a c : Fin 8192) : EReal :=
  ∑ l : Fin 81, (((u (ix2 a l)).toInt : ℝ) : EReal) * (((v (ix2 c l)).toInt : ℝ) : EReal)

/-- softplus(x / 2) in the stable form max(y, 0) + log1p(exp(−|y − 0|)), y = x · ½. -/
def softplusHalf (x : EReal) : EReal :=
  max (x * half) 0 + Ideal.log1p (Ideal.exp (-(max (x * half - 0) (-(x * half - 0)))))

/-- x where the overlap is positive, else 0. -/
def masked (s x : EReal) : EReal := Scalar.select (Ideal.cmp .ogt s 0) x 0

/-- The sum of softplus(θ / 2) over all pairs. -/
def pairSoftplus (f g : Codes) : EReal := ∑ a : Fin 8192, ∑ c : Fin 8192, softplusHalf (theta f g a c)
/-- The sum of θ over the pairs whose labels overlap. -/
def pairMasked (f g : Codes) (u v : Labels) : EReal :=
  ∑ a : Fin 8192, ∑ c : Fin 8192, masked (overlap u v a c) (theta f g a c)
/-- The quantization term: ∑ (B − F)² + (B − G)² over all entries. -/
def quant (f g b : Codes) : EReal :=
  ∑ a : Fin 8192, ∑ k : Fin 16, ((b (ix2 a k) - f (ix2 a k)) * (b (ix2 a k) - f (ix2 a k))
    + (b (ix2 a k) - g (ix2 a k)) * (b (ix2 a k) - g (ix2 a k)))
/-- The sum over samples of the squared row sum of a code array. -/
def rowSumSq (f : Codes) : EReal := ∑ a : Fin 8192, (∑ k : Fin 16, f (ix2 a k)) * (∑ k : Fin 16, f (ix2 a k))

/-- The loss. -/
def loss (f g b : Codes) (u v : Labels) : EReal :=
  ((pairSoftplus f g - pairMasked f g u v) + half * quant f g b) + half * (rowSumSq f + rowSumSq g)

/-! ## Tiles: the [8192, 8192] pairs cut into 8 × 8 tiles of 1024 × 1024, tile t = 8 i + j at rows 1024 i …, columns 1024 j … -/

/-- Row p of tile t. -/
def tileRow (t : Fin 64) (p : Fin 1024) : Fin 8192 := ⟨1024 * (t.val / 8) + p.val, by have := t.isLt; have := p.isLt; omega⟩
/-- Column q of tile t. -/
def tileCol (t : Fin 64) (q : Fin 1024) : Fin 8192 := ⟨1024 * (t.val % 8) + q.val, by have := t.isLt; have := q.isLt; omega⟩

/-- A sample index is a block number and a position inside the block. -/
def blockEquiv : Fin 8 × Fin 1024 ≃ Fin 8192 where
  toFun x := ⟨1024 * x.1.val + x.2.val, by have := x.1.isLt; have := x.2.isLt; omega⟩
  invFun a := (⟨a.val / 1024, by have := a.isLt; omega⟩, ⟨a.val % 1024, Nat.mod_lt _ (by decide)⟩)
  left_inv x := by
    obtain ⟨⟨i, hi⟩, ⟨p, hp⟩⟩ := x
    simp only [Prod.mk.injEq, Fin.mk.injEq]
    constructor <;> omega
  right_inv a := by
    apply Fin.ext
    show 1024 * (a.val / 1024) + a.val % 1024 = a.val
    omega

/-- A tile number is a block row and a block column. -/
def tileEquiv : Fin 8 × Fin 8 ≃ Fin 64 where
  toFun x := ⟨8 * x.1.val + x.2.val, by have := x.1.isLt; have := x.2.isLt; omega⟩
  invFun t := (⟨t.val / 8, by have := t.isLt; omega⟩, ⟨t.val % 8, Nat.mod_lt _ (by decide)⟩)
  left_inv x := by
    obtain ⟨⟨i, hi⟩, ⟨j, hj⟩⟩ := x
    simp only [Prod.mk.injEq, Fin.mk.injEq]
    constructor <;> omega
  right_inv t := by
    apply Fin.ext
    show 8 * (t.val / 8) + t.val % 8 = t.val
    omega

/-- Re-indexing a double sum by blocks, over abstract finite index types: with every index a (block, position) pair and
    every tile a (block, block) pair, the sum over all pairs is the sum over tiles of the sums inside a tile. Only
    commutativity and associativity of + are used. -/
theorem sum_pairs_reindex {M A I P T : Type*} [AddCommMonoid M] [Fintype A] [Fintype I] [Fintype P] [Fintype T]
    (e : I × P ≃ A) (τ : I × I ≃ T) (h : A → A → M) :
    ∑ a : A, ∑ c : A, h a c = ∑ t : T, ∑ p : P, ∑ q : P, h (e ((τ.symm t).1, p)) (e ((τ.symm t).2, q)) := by
  calc ∑ a : A, ∑ c : A, h a c
      = ∑ x : I × P, ∑ y : I × P, h (e x) (e y) := by
        rw [← Equiv.sum_comp e]
        exact Finset.sum_congr rfl fun x _ => (Equiv.sum_comp e (fun c => h (e x) c)).symm
    _ = ∑ i : I, ∑ p : P, ∑ j : I, ∑ q : P, h (e (i, p)) (e (j, q)) := by
        rw [Fintype.sum_prod_type]
        exact Finset.sum_congr rfl fun i _ => Finset.sum_congr rfl fun p _ => Fintype.sum_prod_type _
    _ = ∑ i : I, ∑ j : I, ∑ p : P, ∑ q : P, h (e (i, p)) (e (j, q)) :=
        Finset.sum_congr rfl fun i _ => Finset.sum_comm
    _ = ∑ z : I × I, ∑ p : P, ∑ q : P, h (e (z.1, p)) (e (z.2, q)) :=
        (Fintype.sum_prod_type (fun z : I × I => ∑ p : P, ∑ q : P, h (e (z.1, p)) (e (z.2, q)))).symm
    _ = ∑ t : T, ∑ p : P, ∑ q : P, h (e ((τ.symm t).1, p)) (e ((τ.symm t).2, q)) :=
        (Equiv.sum_comp τ.symm (fun z : I × I => ∑ p : P, ∑ q : P, h (e (z.1, p)) (e (z.2, q)))).symm

theorem blockEquiv_row (t : Fin 64) (p : Fin 1024) : blockEquiv ((tileEquiv.symm t).1, p) = tileRow t p := Fin.ext rfl
theorem blockEquiv_col (t : Fin 64) (q : Fin 1024) : blockEquiv ((tileEquiv.symm t).2, q) = tileCol t q := Fin.ext rfl

/-- A sum over all pairs of samples is the sum over the 64 tiles of each tile's sum. -/
theorem sum_pairs_eq_sum_tiles {M : Type*} [AddCommMonoid M] (h : Fin 8192 → Fin 8192 → M) :
    ∑ a : Fin 8192, ∑ c : Fin 8192, h a c
      = ∑ t : Fin 64, ∑ p : Fin 1024, ∑ q : Fin 1024, h (tileRow t p) (tileCol t q) :=
  (sum_pairs_reindex blockEquiv tileEquiv h).trans (Finset.sum_congr rfl fun t _ => Finset.sum_congr rfl fun p _ =>
    Finset.sum_congr rfl fun q _ => by rw [blockEquiv_row, blockEquiv_col])

/-! ## The running sum across the grid: z + s₀, then + sₙ -/

/-- The accumulator after point n: reset to z and the first tile's sum added, then one tile's sum per point. -/
def runSum {M : Type*} [AddCommMonoid M] {N : ℕ} (z : M) (s : Fin N → M) : (n : ℕ) → n < N → M
  | 0, h => z + s ⟨0, h⟩
  | n + 1, h => runSum z s n (Nat.lt_of_succ_lt h) + s ⟨n + 1, h⟩

/-- It is z plus the sum of the first n + 1 tile sums (associativity only). -/
theorem runSum_eq {M : Type*} [AddCommMonoid M] {N : ℕ} (z : M) (s : Fin N → M) :
    ∀ (n : ℕ) (h : n < N), runSum z s n h = z + ∑ i : Fin (n + 1), s (Fin.castLE h i)
  | 0, h => by
    rw [runSum, Fin.sum_univ_one]
    rfl
  | n + 1, h => by
    have e := Fin.sum_univ_castSucc (fun i : Fin (n + 2) => s (Fin.castLE h i))
    rw [runSum, runSum_eq z s n, e, add_assoc]
    exact congrArg (z + ·) (congrArg₂ (· + ·) (Finset.sum_congr rfl fun i _ => rfl) rfl)

/-- After the last point the accumulator is z plus the sum over all points. -/
theorem runSum_last {M : Type*} [AddCommMonoid M] {N : ℕ} (z : M) (s : Fin (N + 1) → M) :
    runSum z s N (Nat.lt_succ_self N) = z + ∑ t : Fin (N + 1), s t := by
  rw [runSum_eq]
  exact congrArg (z + ·) (Finset.sum_congr rfl fun i _ => congrArg s (Fin.ext rfl))

end Cert.PairLoss

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Tile.lean ====
/-
  One tile of the first kernel, as arithmetic on the extended reals.

  The body takes a [1024, 16] block of each code array and a [1024, 81] block of each label array. Its matrix product
  of the code blocks is θ on the tile's 1024 × 1024 pairs, entry (p, q) the inner product of row p with row q; the
  product of the label blocks, each word converted to the integer it denotes, is the label overlap. Entry by entry it
  applies softplus(θ / 2) (the guard "x ≠ x" never fires on an extended real, and 0 − y is −y) and keeps θ where the
  overlap is positive; each [1024, 1024] result is summed along its rows, the column of row sums is summed, and the
  [1, 1] total is added to what the accumulator held. Read at the accumulator's one index these are the tile's sums
  of the specification's scalar functions.
-/
import proofs.«158205_j39221641347692_1_alg».proof.Proof.Gen.KernelIdeal.Skeleton
import proofs.«158205_j39221641347692_1_alg».proof.Proof.Spec
import proofs.«158205_j39221641347692_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.PairLoss

open Cert.KernelIdeal Cert.KernelIdeal.Gen
open Idealize.ShloMosaic Idealize.ShloMosaic.ValueIdx

/-- One tile's sum of softplus(θ / 2): x0 the tile's 1024 rows of the first code array, x1 its 1024 rows of the second. -/
def tileSoftplus (x0 x1 : Vec Ideal S1024x16 .f32) : EReal :=
  ∑ p : Fin 1024, ∑ q : Fin 1024, softplusHalf (∑ k : Fin 16, x0 (ix2 p k) * x1 (ix2 q k))

/-- One tile's sum of θ over the pairs whose label rows overlap. -/
def tileMasked (x0 x1 : Vec Ideal S1024x16 .f32) (x2 x3 : Vec Ideal S1024x81 .i32) : EReal :=
  ∑ p : Fin 1024, ∑ q : Fin 1024,
    masked (∑ l : Fin 81, (((x2 (ix2 p l)).toInt : ℝ) : EReal) * (((x3 (ix2 q l)).toInt : ℝ) : EReal))
      (∑ k : Fin 16, x0 (ix2 p k) * x1 (ix2 q k))

theorem pay3_apply (i : S1x1.Idx) : k0_pay3 (F := Ideal) i = 0 := by
  unfold k0_pay3
  exact Ideal.ofBits_zero_f32

theorem pay4_apply (i : S1x1.Idx) : k0_pay4 (F := Ideal) i = 0 := by
  unfold k0_pay4
  exact Ideal.ofBits_zero_f32

/-- The first accumulator's update: what the buffer held plus the tile's sum. -/
theorem pay1_apply (v30 : FVec Ideal S1x1 .f32) (v45 : Vec Ideal S1x1 .f32) (i : S1x1.Idx) :
    k0_pay1 (F := Ideal) v30 v45 i = v45 i + v30 i := by
  unfold k0_pay1
  show shapeCast S1x1 v45 _ i + v30 i = _
  rw [shapeCast_self]

/-- The sum down an `[a, 1]` column (a float `multi_reduction <add>` over axis 0 from the neutral accumulator), read on
    the extended reals at its one index, is the finite sum of the column's `a` entries. -/
theorem colSum_apply {φ : FTy} {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ p : Fin a, src (ix2 p u) :=
  (Ideal.multiReduction_add_single src acc h hφ hacc (ix1 u)).trans
    (Finset.sum_congr rfl fun k _ => congrArg src (funext fun c => Fin.ext (by
      match c with
      | ⟨0, _⟩ => rfl
      | ⟨1, _⟩ => rfl)))

/-! ## The code product θ of a tile -/

theorem lhs_theta_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_theta_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_theta_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_theta_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The product of the two code blocks at `(p, q)`: the inner product of row `p` of the first with row `q` of the second
    (the narrowing to bf16 is exact on the extended reals, and the transposed second block read at `(k, q)` is its `(q, k)`). -/
theorem theta_apply (x0 x1 : Vec Ideal S1024x16 .f32) (p q : Fin 1024) :
    k0_pay5 (F := Ideal) x0 x1 (ix2 p q) = ∑ k : Fin 16, x0 (ix2 p k) * x1 (ix2 q k) := by
  unfold k0_pay5
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact lhs_theta_0 _ _
    | ⟨1, _⟩ => exact (lhs_theta_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (rhs_theta_0 _ _).trans hk
    | ⟨1, _⟩ => exact rhs_theta_1 _ _)
  rw [el, er, transpose_ix2_apply]
  rfl

/-! ## The label overlap of a tile -/

theorem lhs_overlap_0 (i : S1024x1024.Idx) (q : dot_S1024x81_S81x1024_S1024x1024_1_0_0_1_n_n.contr.Idx) :
    (dot_S1024x81_S81x1024_S1024x1024_1_0_0_1_n_n.lhsIdx i q 0).val = (i 0).val := by
  unfold DotDims.lhsIdx
  rw [dif_neg (show ¬(0 : Fin S1024x81.rank) ∈ dot_S1024x81_S81x1024_S1024x1024_1_0_0_1_n_n.lhsBatch by decide), dif_pos (show (0 : Fin S1024x81.rank) ∈ dot_S1024x81_S81x1024_S1024x1024_1_0_0_1_n_n.lhsNonContracting by decide)]
  rfl
theorem lhs_overlap_1 (i : S1024x1024.Idx) (q : dot_S1024x81_S81x1024_S1024x1024_1_0_0_1_n_n.contr.Idx) :
    (dot_S1024x81_S81x1024_S1024x1024_1_0_0_1_n_n.lhsIdx i q 1).val = (q ⟨0, by decide⟩).val :=
  dot_S1024x81_S81x1024_S1024x1024_1_0_0_1_n_n.lhsIdx_val_of_single rfl i q
theorem rhs_overlap_0 (i : S1024x1024.Idx) (q : dot_S1024x81_S81x1024_S1024x1024_1_0_0_1_n_n.contr.Idx) :
    (dot_S1024x81_S81x1024_S1024x1024_1_0_0_1_n_n.rhsIdx i q 0).val = (q ⟨0, by decide⟩).val :=
  dot_S1024x81_S81x1024_S1024x1024_1_0_0_1_n_n.rhsIdx_val_of_single rfl i q
theorem rhs_overlap_1 (i : S1024x1024.Idx) (q : dot_S1024x81_S81x1024_S1024x1024_1_0_0_1_n_n.contr.Idx) :
    (dot_S1024x81_S81x1024_S1024x1024_1_0_0_1_n_n.rhsIdx i q 1).val = (i 1).val := by
  unfold DotDims.rhsIdx
  rw [dif_neg (show ¬(1 : Fin S81x1024.rank) ∈ dot_S1024x81_S81x1024_S1024x1024_1_0_0_1_n_n.rhsBatch by decide), dif_pos (show (1 : Fin S81x1024.rank) ∈ dot_S1024x81_S81x1024_S1024x1024_1_0_0_1_n_n.rhsNonContracting by decide)]
  rfl

/-- The product of the two label blocks at `(p, q)`: the inner product of label row `p` of the first with label row `q`
    of the second, each word converted exactly to the signed integer it denotes. -/
theorem overlap_apply (x2 x3 : Vec Ideal S1024x81 .i32) (p q : Fin 1024) :
    k0_pay7 (F := Ideal) x2 x3 (ix2 p q)
      = ∑ l : Fin 81, (((x2 (ix2 p l)).toInt : ℝ) : EReal) * (((x3 (ix2 q l)).toInt : ℝ) : EReal) := by
  unfold k0_pay7
  simp only [matmul]
  rw [Ideal.matmul_constant_zero_apply, ← Equiv.sum_comp (ValueIdx.contrEquiv1 dot_S1024x81_S81x1024_S1024x1024_1_0_0_1_n_n 81 rfl rfl).symm]
  refine Finset.sum_congr rfl fun k _ => ?_
  have hk := ValueIdx.contrEquiv1_symm_val dot_S1024x81_S81x1024_S1024x1024_1_0_0_1_n_n 81 rfl rfl k
  have el : dot_S1024x81_S81x1024_S1024x1024_1_0_0_1_n_n.lhsIdx (ix2 p q) ((ValueIdx.contrEquiv1 dot_S1024x81_S81x1024_S1024x1024_1_0_0_1_n_n 81 rfl rfl).symm k) = ix2 p k := funext fun a => Fin.ext (by
    match a with
    | ⟨0, _⟩ => exact lhs_overlap_0 _ _
    | ⟨1, _⟩ => exact (lhs_overlap_1 _ _).trans hk)
  have er : dot_S1024x81_S81x1024_S1024x1024_1_0_0_1_n_n.rhsIdx (ix2 p q) ((ValueIdx.contrEquiv1 dot_S1024x81_S81x1024_S1024x1024_1_0_0_1_n_n 81 rfl rfl).symm k) = ix2 k q := funext fun a => Fin.ext (by
    match a with
    | ⟨0, _⟩ => exact (rhs_overlap_0 _ _).trans hk
    | ⟨1, _⟩ => exact rhs_overlap_1 _ _)
  rw [el, er, transpose_ix2_apply]
  rfl

/-! ## The softplus chain, entry by entry -/

/-- A value is never different from itself, so the comparison `one` of a value with itself is the cleared bit. -/
theorem cmp_one_self (d : EReal) : Ideal.cmp .one d d = 0#1 := by
  simp [Ideal.cmp]

/-- The chain of the body on one entry `x` of the product: the select on `x · ½ − 0 ≠ x · ½ − 0` takes its second
    branch, and `0 − |y|` is `−|y|`. -/
theorem softplus_scalar (x : EReal) :
    Scalar.select (Ideal.cmp .one (x * Ideal.ofBits .f32 0x3F000000#32 - Ideal.ofBits .f32 0x00000000#32)
        (x * Ideal.ofBits .f32 0x3F000000#32 - Ideal.ofBits .f32 0x00000000#32))
      (x * Ideal.ofBits .f32 0x3F000000#32 + Ideal.ofBits .f32 0x00000000#32)
      (max (x * Ideal.ofBits .f32 0x3F000000#32) (Ideal.ofBits .f32 0x00000000#32)
        + Ideal.log1p (Ideal.exp (Ideal.ofBits .f32 0x00000000#32
            - max (x * Ideal.ofBits .f32 0x3F000000#32 - Ideal.ofBits .f32 0x00000000#32)
                (-(x * Ideal.ofBits .f32 0x3F000000#32 - Ideal.ofBits .f32 0x00000000#32)))))
      = softplusHalf x := by
  rw [cmp_one_self, select_zero, Ideal.ofBits_zero_f32, zero_sub]
  rfl

/-- The tile's softplus sum, as the body computes it: a matrix product of the two code blocks, the softplus chain
    entry by entry, a sum along each row and then down the column of row sums. -/
theorem pay6_apply (x0 x1 : Vec Ideal S1024x16 .f32) (i : S1x1.Idx) :
    k0_pay6 (F := Ideal) x0 x1 i = tileSoftplus x0 x1 := by
  obtain ⟨a, b, rfl⟩ : ∃ (a b : Fin 1), i = ix2 a b := ⟨i 0, i 1, eq_ix2 i⟩
  unfold k0_pay6 tileSoftplus
  refine (Cert.Lib.Column.shapeCast_a_a1_apply _ _ a b).trans ?_
  refine (colSum_apply _ _ _ _ _ a).trans ?_
  refine Finset.sum_congr rfl fun p _ => ?_
  refine (Cert.Lib.Column.shapeCast_a_a1_apply _ _ p a).trans ?_
  refine (Cert.Lib.Column.rowSum_apply _ _ _ _ _ p).trans ?_
  refine Finset.sum_congr rfl fun q _ => ?_
  rw [← theta_apply x0 x1 p q]
  generalize k0_pay5 (F := Ideal) x0 x1 = t
  generalize ix2 p q = j
  exact softplus_scalar (t j)

/-! ## The masked sum -/

/-- The body's select on one entry: the product `x` where the overlap `s` is above the zero word, else the zero word. -/
theorem masked_scalar (s x : EReal) :
    Scalar.select (Ideal.cmp .ogt s (Ideal.ofBits .f32 0x00000000#32)) x (Ideal.ofBits .f32 0x00000000#32) = masked s x := by
  rw [Ideal.ofBits_zero_f32]
  rfl

/-- The second accumulator's update: what the buffer held plus the tile's masked sum. -/
theorem pay2_apply (x0 x1 : Vec Ideal S1024x16 .f32) (x2 x3 : Vec Ideal S1024x81 .i32) (xo : Vec Ideal S1x1 .f32)
    (i : S1x1.Idx) :
    k0_pay2 (F := Ideal) (k0_pay5 x0 x1) (k0_pay7 x2 x3) k0_pay8 xo i = xo i + tileMasked x0 x1 x2 x3 := by
  obtain ⟨a, b, rfl⟩ : ∃ (a b : Fin 1), i = ix2 a b := ⟨i 0, i 1, eq_ix2 i⟩
  unfold k0_pay2 tileMasked
  refine (addf_apply _ _ _).trans ?_
  refine congrArg₂ (· + ·) (congrFun (shapeCast_self xo _) _) ?_
  refine (Cert.Lib.Column.shapeCast_a_a1_apply _ _ a b).trans ?_
  refine (colSum_apply _ _ _ _ _ a).trans ?_
  refine Finset.sum_congr rfl fun p _ => ?_
  refine (Cert.Lib.Column.shapeCast_a_a1_apply _ _ p a).trans ?_
  refine (Cert.Lib.Column.rowSum_apply _ _ _ _ _ p).trans ?_
  refine Finset.sum_congr rfl fun q _ => ?_
  rw [← theta_apply x0 x1 p q, ← overlap_apply x2 x3 p q]
  generalize k0_pay5 (F := Ideal) x0 x1 = t
  generalize k0_pay7 (F := Ideal) x2 x3 = s
  generalize ix2 p q = j
  exact masked_scalar (s j) (t j)

end Cert.PairLoss

end
-- ==== Proof.Accum.lean ====
/-
  The two accumulators of the first kernel across its 64 grid points.

  After point n the first accumulator holds 0 + s₀ + s₁ + … + sₙ, where sₜ is tile t's sum of softplus(θ / 2), and the
  second the same chain of the tiles' masked sums: at the first point the body resets both to zero and adds the tile's
  sums; at every later point it adds the tile's sums to what the point before left. By induction on the point.
-/
import proofs.«158205_j39221641347692_1_alg».proof.Proof.Pieces
import proofs.«158205_j39221641347692_1_alg».proof.Proof.Tile

set_option maxRecDepth 16384

noncomputable section

namespace Cert.PairLoss

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- The four input blocks at a grid point, at their literal types. -/
abbrev rowCodes (c : Dev nD) (t : Fin cfg0.N) : Vec Ideal S1024x16 .f32 := iblk0 V c 0 t
abbrev colCodes (c : Dev nD) (t : Fin cfg0.N) : Vec Ideal S1024x16 .f32 := iblk0 V c 1 t
abbrev rowLabels (c : Dev nD) (t : Fin cfg0.N) : Vec Ideal S1024x81 .i32 := iblk0 V c 2 t
abbrev colLabels (c : Dev nD) (t : Fin cfg0.N) : Vec Ideal S1024x81 .i32 := iblk0 V c 3 t

/-- Tile t's softplus sum and masked sum, of the blocks the windows stage at point t. -/
def tileS (c : Dev nD) (t : Fin cfg0.N) : EReal := tileSoftplus (rowCodes V c t) (colCodes V c t)
def tileM (c : Dev nD) (t : Fin cfg0.N) : EReal :=
  tileMasked (rowCodes V c t) (colCodes V c t) (rowLabels V c t) (colLabels V c t)

/-- At the first point: zero plus the first tile's sums. -/
theorem outs_first (c : Dev nD) (t : Fin cfg0.N) (h0 : t.val % 64 = 0) :
    outsAt0 V c t.val t.isLt = ((fun _ => 0 + tileS V c t), (fun _ => 0 + tileM V c t)) := by
  rw [outsAt0_A V c t h0]
  refine Prod.ext ?_ ?_
  · dsimp only
    refine (softplusAcc_first (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) ((hcond0_0 t).mpr h0)
      (rowCodes V c t) (colCodes V c t) (rowLabels V c t) (colLabels V c t)).trans ?_
    funext i
    refine (pay1_apply (k0_pay6 (rowCodes V c t) (colCodes V c t)) (k0_pay3 (F := Ideal)) i).trans ?_
    show k0_pay3 (F := Ideal) i + k0_pay6 (F := Ideal) (rowCodes V c t) (colCodes V c t) i = 0 + tileS V c t
    rw [pay3_apply, pay6_apply]
    rfl
  · dsimp only
    refine (maskedAcc_first (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) ((hcond0_0 t).mpr h0)
      (rowCodes V c t) (colCodes V c t) (rowLabels V c t) (colLabels V c t)).trans ?_
    funext i
    refine (pay2_apply (rowCodes V c t) (colCodes V c t) (rowLabels V c t) (colLabels V c t) (k0_pay4 (F := Ideal)) i).trans ?_
    show k0_pay4 (F := Ideal) i + tileMasked (rowCodes V c t) (colCodes V c t) (rowLabels V c t) (colLabels V c t) = 0 + tileM V c t
    rw [pay4_apply]
    rfl

/-- At a later point: what the point before left plus this tile's sums. -/
theorem outs_later (c : Dev nD) (t : Fin cfg0.N) (h0 : ¬t.val % 64 = 0) :
    outsAt0 V c t.val t.isLt
      = ((fun i => (outsAt0 V c (t.val - 1) (Nat.lt_of_le_of_lt (Nat.sub_le _ _) t.isLt)).1 i + tileS V c t),
         (fun i => (outsAt0 V c (t.val - 1) (Nat.lt_of_le_of_lt (Nat.sub_le _ _) t.isLt)).2 i + tileM V c t)) := by
  rw [outsAt0_B V c t h0]
  refine Prod.ext ?_ ?_
  · dsimp only
    refine (softplusAcc_later (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (fun h => h0 ((hcond0_0 t).mp h))
      (rowCodes V c t) (colCodes V c t) (rowLabels V c t) (colLabels V c t)
      (outsAt0 V c (t.val - 1) (Nat.lt_of_le_of_lt (Nat.sub_le _ _) t.isLt)).1
      (outsAt0 V c (t.val - 1) (Nat.lt_of_le_of_lt (Nat.sub_le _ _) t.isLt)).2).trans ?_
    funext i
    exact (pay1_apply (k0_pay6 (rowCodes V c t) (colCodes V c t)) _ i).trans
      (congrArg (_ + ·) (pay6_apply (rowCodes V c t) (colCodes V c t) i))
  · dsimp only
    refine (maskedAcc_later (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (fun h => h0 ((hcond0_0 t).mp h))
      (rowCodes V c t) (colCodes V c t) (rowLabels V c t) (colLabels V c t)
      (outsAt0 V c (t.val - 1) (Nat.lt_of_le_of_lt (Nat.sub_le _ _) t.isLt)).1
      (outsAt0 V c (t.val - 1) (Nat.lt_of_le_of_lt (Nat.sub_le _ _) t.isLt)).2).trans ?_
    funext i
    exact pay2_apply (rowCodes V c t) (colCodes V c t) (rowLabels V c t) (colLabels V c t) _ i

/-- The accumulators after point n are the running sums of the tiles' sums. -/
theorem outs_eq (c : Dev nD) : ∀ (n : ℕ) (hn : n < cfg0.N),
    outsAt0 V c n hn = ((fun _ => runSum 0 (tileS V c) n hn), (fun _ => runSum 0 (tileM V c) n hn))
  | 0, hn => outs_first V c ⟨0, hn⟩ rfl
  | n + 1, hn => by
    have hN : cfg0.N = 64 := N_0
    have hB : ¬(⟨n + 1, hn⟩ : Fin cfg0.N).val % 64 = 0 := by dsimp only; omega
    refine (outs_later V c ⟨n + 1, hn⟩ hB).trans ?_
    have ih := outs_eq c n (Nat.lt_of_succ_lt hn)
    refine Prod.ext ?_ ?_
    · funext i
      show (outsAt0 V c n _).1 i + _ = runSum 0 (tileS V c) n _ + _
      rw [ih]
    · funext i
      show (outsAt0 V c n _).2 i + _ = runSum 0 (tileM V c) n _ + _
      rw [ih]

end Cert.PairLoss

end
-- ==== Proof.Whole.lean ====
/-
  The second kernel, as arithmetic on the extended reals: on the whole [8192, 16] code arrays F, G, B it forms
  (B − F)² + (B − G)², sums each row, then the column of row sums; and the row sums of F and of G, squares each,
  and sums each column of squares. Read at the one index of its [1, 1] results these are the specification's
  quantization term and the two sums of squared row sums. A sum from the neutral accumulator is the bare finite sum.
-/
import proofs.«158205_j39221641347692_1_alg».proof.Proof.Gen.KernelIdeal.Skeleton
import proofs.«158205_j39221641347692_1_alg».proof.Proof.Spec
import proofs.«158205_j39221641347692_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.PairLoss

open Cert.KernelIdeal Cert.KernelIdeal.Gen
open Idealize.ShloMosaic Idealize.ShloMosaic.ValueIdx

/-- The sum down the one column of an `[a, 1]` block (a float `multi_reduction <add>` over axis 0 from the neutral
    accumulator), read on the extended reals at the one index of `[1]`, is the finite sum of the column's `a` entries. -/
theorem columnTotal_apply {φ : FTy} {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ i : Fin a, src (ix2 i u) :=
  (Ideal.multiReduction_add_single src acc h hφ hacc (ix1 u)).trans
    (Finset.sum_congr rfl fun k _ => congrArg src (funext fun c => Fin.ext (by
      match c with
      | ⟨0, _⟩ => rfl
      | ⟨1, _⟩ => rfl)))

/-- The total of an `[a, d]` block taken in the kernel's two steps — each row summed along its `d` lanes, the `[a]` vector
    of row sums laid as an `[a, 1]` column, the column summed, and the `[1]` result laid as `[1, 1]` — is, at the one
    index of `[1, 1]`, the double sum over rows and lanes. -/
theorem total_apply {φ : FTy} {a d : ℕ} (src : FVec Ideal ⟨2, ![a, d]⟩ φ) (acc acc' : BitVec φ.bits)
    (h1 : (⟨2, ![a, d]⟩ : Shape).Reduces [1] ⟨1, ![a]⟩) (hc1 : (⟨1, ![a]⟩ : Shape).ShapeCasts ⟨2, ![a, 1]⟩)
    (h0 : (⟨2, ![a, 1]⟩ : Shape).Reduces [0] ⟨1, ![1]⟩) (hc0 : (⟨1, ![1]⟩ : Shape).ShapeCasts ⟨2, ![1, 1]⟩)
    (hφ : FKind.Formats φ) (hacc : acc = FKind.add.neutral φ hφ) (hacc' : acc' = FKind.add.neutral φ hφ)
    (i : (⟨2, ![1, 1]⟩ : Shape).Idx) :
    shapeCast ⟨2, ![1, 1]⟩
      (multiReduction .add [0] ⟨1, ![1]⟩
        (shapeCast ⟨2, ![a, 1]⟩ (multiReduction .add [1] ⟨1, ![a]⟩ src acc h1 hφ hacc) hc1) acc' h0 hφ hacc') hc0 i
      = ∑ p : Fin a, ∑ k : Fin d, src (ix2 p k) := by
  rw [eq_ix2 i]
  refine (shapeCast_a_1a_apply _ hc0 (i 0) (i 1)).trans ?_
  refine (columnTotal_apply _ acc' h0 hφ hacc' (i 1)).trans ?_
  refine Finset.sum_congr rfl fun p _ => ?_
  refine (Cert.Lib.Column.shapeCast_a_a1_apply _ hc1 p (i 1)).trans ?_
  exact Cert.Lib.Column.rowSum_apply src acc h1 hφ hacc p

/-- The second kernel's first result: the quantization term of the whole arrays (v0 = F, v1 = G, v2 = B). -/
theorem quantPay_apply (v0 v1 v2 : Vec Ideal S8192x16 .f32) (i : S1x1.Idx) :
    k1_pay1 (F := Ideal) v0 v1 v2 i = quant v0 v1 v2 := by
  unfold k1_pay1 quant
  refine (total_apply (a := 8192) (d := 16) _ _ _ _ _ _ _ _ _ _ i).trans ?_
  rfl

/-- The sum of the squared row sums of an `[a, d]` block taken as the kernel does — the rows summed along their lanes,
    the sums laid as a column, the column squared entry by entry, summed, and laid as `[1, 1]`. -/
theorem sumSq_apply {φ : FTy} {a d : ℕ} (src : FVec Ideal ⟨2, ![a, d]⟩ φ) (acc acc' : BitVec φ.bits)
    (h1 : (⟨2, ![a, d]⟩ : Shape).Reduces [1] ⟨1, ![a]⟩) (hc1 : (⟨1, ![a]⟩ : Shape).ShapeCasts ⟨2, ![a, 1]⟩)
    (h0 : (⟨2, ![a, 1]⟩ : Shape).Reduces [0] ⟨1, ![1]⟩) (hc0 : (⟨1, ![1]⟩ : Shape).ShapeCasts ⟨2, ![1, 1]⟩)
    (hφ : FKind.Formats φ) (hacc : acc = FKind.add.neutral φ hφ) (hacc' : acc' = FKind.add.neutral φ hφ)
    (i : (⟨2, ![1, 1]⟩ : Shape).Idx) :
    shapeCast ⟨2, ![1, 1]⟩
      (multiReduction .add [0] ⟨1, ![1]⟩
        (mulf (shapeCast ⟨2, ![a, 1]⟩ (multiReduction .add [1] ⟨1, ![a]⟩ src acc h1 hφ hacc) hc1)
              (shapeCast ⟨2, ![a, 1]⟩ (multiReduction .add [1] ⟨1, ![a]⟩ src acc h1 hφ hacc) hc1)) acc' h0 hφ hacc') hc0 i
      = ∑ p : Fin a, (∑ k : Fin d, src (ix2 p k)) * (∑ k : Fin d, src (ix2 p k)) := by
  rw [eq_ix2 i]
  refine (shapeCast_a_1a_apply _ hc0 (i 0) (i 1)).trans ?_
  refine (columnTotal_apply _ acc' h0 hφ hacc' (i 1)).trans ?_
  refine Finset.sum_congr rfl fun p _ => ?_
  have hrow : shapeCast ⟨2, ![a, 1]⟩ (multiReduction .add [1] ⟨1, ![a]⟩ src acc h1 hφ hacc) hc1 (ix2 p (i 1))
      = ∑ k : Fin d, src (ix2 p k) :=
    (Cert.Lib.Column.shapeCast_a_a1_apply _ hc1 p (i 1)).trans (Cert.Lib.Column.rowSum_apply src acc h1 hφ hacc p)
  exact (mulf_apply _ _ _).trans (congrArg₂ (· * ·) hrow hrow)

/-- The second kernel's second result: the two sums of squared row sums. -/
theorem balancePay_apply (v0 v1 : Vec Ideal S8192x16 .f32) (i : S1x1.Idx) :
    k1_pay2 (F := Ideal) v0 v1 i = rowSumSq v0 + rowSumSq v1 := by
  unfold k1_pay2 rowSumSq
  refine (addf_apply _ _ i).trans ?_
  refine congrArg₂ (· + ·) ?_ ?_
  · exact sumSq_apply (a := 8192) (d := 16) v0 _ _ _ _ _ _ _ _ _ i
  · exact sumSq_apply (a := 8192) (d := 16) v1 _ _ _ _ _ _ _ _ _ i

end Cert.PairLoss

end
-- ==== Proof.Arrays.lean ====
/-
  The four [1,1] result arrays after the two kernels have run, as contents.

  Each accumulator of the first kernel is written back once, after the last grid point, and its block is the whole
  [1,1] array: the array ends holding the last running sum. The second kernel has one grid point; each of its windows
  is a whole array, so its two results are its two stores of the three whole code arrays.
-/
import proofs.«158205_j39221641347692_1_alg».proof.Proof.Accum
import proofs.«158205_j39221641347692_1_alg».proof.Proof.Whole

set_option maxRecDepth 16384

noncomputable section

namespace Cert.PairLoss

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The first kernel's grid has 64 points; the last is point 63. -/
theorem lastLt : 63 < cfg0.N := by rw [show cfg0.N = 64 from N_0]; decide
def tLast : Fin cfg0.N := ⟨63, lastLt⟩

/-- The first accumulator's array after the first kernel: the running softplus sum after the last point. -/
theorem softplusArr (c : Dev nD) :
    (dat0 V c).arrAt 4 cfg0.N = fun _ => runSum 0 (tileS V c) 63 lastLt :=
  (dat0 V c).arrAt_eq_of_cover 4 _ (fun t hf => by
      have hN : cfg0.N = 64 := N_0
      have h63 : t.val = 63 := by have := (flush0_4 t).mp hf; have := t.isLt; omega
      obtain rfl : t = tLast := Fin.ext h63
      funext y
      rw [View.read_apply]
      show (dat0 V c).after 4 tLast _ = _
      rw [after0_4, outs_eq]
      rfl)
    (fun i => ⟨tLast, (flush0_4 tLast).mpr rfl, by
      show i ∈ ((View.whole main_v0_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]; omega⟩)

/-- The second accumulator's array after the first kernel: the running masked sum after the last point. -/
theorem maskedArr (c : Dev nD) :
    (dat0 V c).arrAt 5 cfg0.N = fun _ => runSum 0 (tileM V c) 63 lastLt :=
  (dat0 V c).arrAt_eq_of_cover 5 _ (fun t hf => by
      have hN : cfg0.N = 64 := N_0
      have h63 : t.val = 63 := by have := (flush0_5 t).mp hf; have := t.isLt; omega
      obtain rfl : t = tLast := Fin.ext h63
      funext y
      rw [View.read_apply]
      show (dat0 V c).after 5 tLast _ = _
      rw [after0_5, outs_eq]
      rfl)
    (fun i => ⟨tLast, (flush0_5 tLast).mpr rfl, by
      show i ∈ ((View.whole main_v0_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [show win0_5.index tLast 0 * win0_5.size 0 = 0 from by decide +kernel, show win0_5.xsize (grid0.coords tLast) 0 = 1 from by decide +kernel]; omega
      | ⟨1, _⟩ =>
        show win0_5.index tLast 1 * win0_5.size 1 ≤ (i 1 : Nat) ∧ (i 1 : Nat) < win0_5.index tLast 1 * win0_5.size 1 + win0_5.xsize (grid0.coords tLast) 1
        rw [show win0_5.index tLast 1 * win0_5.size 1 = 0 from by decide +kernel, show win0_5.xsize (grid0.coords tLast) 1 = 1 from by decide +kernel]; omega⟩)

/-- The second kernel's first window is the whole first code array. -/
theorem wholeF (c : Dev nD) (t : Fin cfg1.N) : (iblk1 V c 0 t : Vec Ideal S8192x16 .f32) = V c main_arg0 := by
  obtain rfl := fin_N1 t
  funext j
  unfold iblk1
  rw [View.read_apply]
  show V c main_arg0 _ = V c main_arg0 j
  congr 1
  funext a
  apply Fin.ext
  match a with
  | ⟨0, _⟩ =>
    show win1_0.index t1_0 0 * 8192 + 1 * (j 0).val = (j 0).val
    rw [show win1_0.index t1_0 0 = 0 from by decide +kernel]; omega
  | ⟨1, _⟩ =>
    show win1_0.index t1_0 1 * 16 + 1 * (j 1).val = (j 1).val
    rw [show win1_0.index t1_0 1 = 0 from by decide +kernel]; omega

/-- Its second window is the whole second code array. -/
theorem wholeG (c : Dev nD) (t : Fin cfg1.N) : (iblk1 V c 1 t : Vec Ideal S8192x16 .f32) = V c main_arg1 := by
  obtain rfl := fin_N1 t
  funext j
  unfold iblk1
  rw [View.read_apply]
  show V c main_arg1 _ = V c main_arg1 j
  congr 1
  funext a
  apply Fin.ext
  match a with
  | ⟨0, _⟩ =>
    show win1_1.index t1_0 0 * 8192 + 1 * (j 0).val = (j 0).val
    rw [show win1_1.index t1_0 0 = 0 from by decide +kernel]; omega
  | ⟨1, _⟩ =>
    show win1_1.index t1_0 1 * 16 + 1 * (j 1).val = (j 1).val
    rw [show win1_1.index t1_0 1 = 0 from by decide +kernel]; omega

/-- Its third window is the whole third code array. -/
theorem wholeB (c : Dev nD) (t : Fin cfg1.N) : (iblk1 V c 2 t : Vec Ideal S8192x16 .f32) = V c main_arg2 := by
  obtain rfl := fin_N1 t
  funext j
  unfold iblk1
  rw [View.read_apply]
  show V c main_arg2 _ = V c main_arg2 j
  congr 1
  funext a
  apply Fin.ext
  match a with
  | ⟨0, _⟩ =>
    show win1_2.index t1_0 0 * 8192 + 1 * (j 0).val = (j 0).val
    rw [show win1_2.index t1_0 0 = 0 from by decide +kernel]; omega
  | ⟨1, _⟩ =>
    show win1_2.index t1_0 1 * 16 + 1 * (j 1).val = (j 1).val
    rw [show win1_2.index t1_0 1 = 0 from by decide +kernel]; omega

/-- The second kernel's first result array: the quantization term of the three code arrays. -/
theorem quantArr (c : Dev nD) :
    (dat1 V c).arrAt 3 cfg1.N = fun _ => quant (V c main_arg0) (V c main_arg1) (V c main_arg2) :=
  (dat1 V c).arrAt_eq_of_cover 3 _ (fun t hf => by
      funext y
      rw [View.read_apply]
      show (dat1 V c).after 3 t _ = _
      rw [after1_3, quantStore, wholeF, wholeG, wholeB]
      exact quantPay_apply _ _ _ _)
    (fun i => ⟨t1_0, flush1_3 t1_0, by
      show i ∈ ((View.whole main_v1_0).slice (win1_3.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index t1_0 0 * win1_3.size 0 ≤ (i 0 : Nat) ∧ (i 0 : Nat) < win1_3.index t1_0 0 * win1_3.size 0 + win1_3.xsize (grid1.coords t1_0) 0
        rw [show win1_3.index t1_0 0 * win1_3.size 0 = 0 from by decide +kernel, show win1_3.xsize (grid1.coords t1_0) 0 = 1 from by decide +kernel]; omega
      | ⟨1, _⟩ =>
        show win1_3.index t1_0 1 * win1_3.size 1 ≤ (i 1 : Nat) ∧ (i 1 : Nat) < win1_3.index t1_0 1 * win1_3.size 1 + win1_3.xsize (grid1.coords t1_0) 1
        rw [show win1_3.index t1_0 1 * win1_3.size 1 = 0 from by decide +kernel, show win1_3.xsize (grid1.coords t1_0) 1 = 1 from by decide +kernel]; omega⟩)

/-- Its second result array: the two sums of squared row sums. -/
theorem balanceArr (c : Dev nD) :
    (dat1 V c).arrAt 4 cfg1.N = fun _ => rowSumSq (V c main_arg0) + rowSumSq (V c main_arg1) :=
  (dat1 V c).arrAt_eq_of_cover 4 _ (fun t hf => by
      funext y
      rw [View.read_apply]
      show (dat1 V c).after 4 t _ = _
      rw [after1_4, balanceStore, wholeF, wholeG]
      exact balancePay_apply _ _ _)
    (fun i => ⟨t1_0, flush1_4 t1_0, by
      show i ∈ ((View.whole main_v1_1).slice (win1_4.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index t1_0 0 * win1_4.size 0 ≤ (i 0 : Nat) ∧ (i 0 : Nat) < win1_4.index t1_0 0 * win1_4.size 0 + win1_4.xsize (grid1.coords t1_0) 0
        rw [show win1_4.index t1_0 0 * win1_4.size 0 = 0 from by decide +kernel, show win1_4.xsize (grid1.coords t1_0) 0 = 1 from by decide +kernel]; omega
      | ⟨1, _⟩ =>
        show win1_4.index t1_0 1 * win1_4.size 1 ≤ (i 1 : Nat) ∧ (i 1 : Nat) < win1_4.index t1_0 1 * win1_4.size 1 + win1_4.xsize (grid1.coords t1_0) 1
        rw [show win1_4.index t1_0 1 * win1_4.size 1 = 0 from by decide +kernel, show win1_4.xsize (grid1.coords t1_0) 1 = 1 from by decide +kernel]; omega⟩)

end Cert.PairLoss

end
-- ==== Proof.Blocks.lean ====
/-
  The blocks the first kernel's windows stage at grid point t = 8 i + j, read entry by entry off the whole arrays:
  the first and third windows (the first code array, the first label array) hold rows 1024 i … 1024 i + 1023, the
  second and fourth (the second code array, the second label array) rows 1024 j … 1024 j + 1023. A block's coordinate
  is always block index × block size + the coordinate inside the block; the block indices are decided once over the grid.
-/
import proofs.«158205_j39221641347692_1_alg».proof.Proof.Gen.KernelIdeal.Frame
import proofs.«158205_j39221641347692_1_alg».proof.Proof.Spec
import Idealize.ShloMosaic.Lib.Pipeline.Value
import Idealize.ShloMosaic.Lib.ValueIdx

set_option maxRecDepth 16384

noncomputable section

namespace Cert.PairLoss

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The four input windows' block indices at a grid point: (t / 8, 0) for the row-side windows, (t % 8, 0) for the
    column-side ones. -/
structure GridIdx (t : Fin cfg0.N) : Prop where
  «0r» : win0_0.index t 0 = t.val / 8
  «0c» : win0_0.index t 1 = 0
  «1r» : win0_1.index t 0 = t.val % 8
  «1c» : win0_1.index t 1 = 0
  «2r» : win0_2.index t 0 = t.val / 8
  «2c» : win0_2.index t 1 = 0
  «3r» : win0_3.index t 0 = t.val % 8
  «3c» : win0_3.index t 1 = 0

theorem gridIdxAll : ∀ t : Fin cfg0.N, win0_0.index t 0 = t.val / 8 ∧ win0_0.index t 1 = 0 ∧ win0_1.index t 0 = t.val % 8
    ∧ win0_1.index t 1 = 0 ∧ win0_2.index t 0 = t.val / 8 ∧ win0_2.index t 1 = 0 ∧ win0_3.index t 0 = t.val % 8 ∧ win0_3.index t 1 = 0 :=
  (by decide +kernel : ∀ t : Fin grid0.N, win0_0.index t 0 = t.val / 8 ∧ win0_0.index t 1 = 0 ∧ win0_1.index t 0 = t.val % 8
    ∧ win0_1.index t 1 = 0 ∧ win0_2.index t 0 = t.val / 8 ∧ win0_2.index t 1 = 0 ∧ win0_3.index t 0 = t.val % 8 ∧ win0_3.index t 1 = 0)

theorem gridIdx : ∀ t : Fin cfg0.N, GridIdx t :=
  fun t => ⟨(gridIdxAll t).1, (gridIdxAll t).2.1, (gridIdxAll t).2.2.1, (gridIdxAll t).2.2.2.1, (gridIdxAll t).2.2.2.2.1,
    (gridIdxAll t).2.2.2.2.2.1, (gridIdxAll t).2.2.2.2.2.2.1, (gridIdxAll t).2.2.2.2.2.2.2⟩

/-- The first window's block at point t is rows 1024 (t / 8) … of the first code array. -/
theorem codeRows (c : Dev nD) (t : Fin cfg0.N) (p : Fin 1024) (k : Fin 16) :
    (iblk0 V c 0 t : Vec F S1024x16 .f32) (ix2 p k) = (V c main_arg0 : Vec F S8192x16 .f32) (ix2 (tileRow (t.cast N_0) p) k) := by
  have hi := gridIdx t
  unfold iblk0
  rw [View.read_apply]
  show V c main_arg0 _ = V c main_arg0 _
  congr 1
  funext a
  apply Fin.ext
  match a with
  | ⟨0, _⟩ =>
    show win0_0.index t 0 * 1024 + 1 * p.val = 1024 * (t.val / 8) + p.val
    rw [hi.«0r»]; omega
  | ⟨1, _⟩ =>
    show win0_0.index t 1 * 16 + 1 * k.val = k.val
    rw [hi.«0c»]; omega

/-- The second window's block at point t is rows 1024 (t % 8) … of the second code array. -/
theorem codeCols (c : Dev nD) (t : Fin cfg0.N) (p : Fin 1024) (k : Fin 16) :
    (iblk0 V c 1 t : Vec F S1024x16 .f32) (ix2 p k) = (V c main_arg1 : Vec F S8192x16 .f32) (ix2 (tileCol (t.cast N_0) p) k) := by
  have hi := gridIdx t
  unfold iblk0
  rw [View.read_apply]
  show V c main_arg1 _ = V c main_arg1 _
  congr 1
  funext a
  apply Fin.ext
  match a with
  | ⟨0, _⟩ =>
    show win0_1.index t 0 * 1024 + 1 * p.val = 1024 * (t.val % 8) + p.val
    rw [hi.«1r»]; omega
  | ⟨1, _⟩ =>
    show win0_1.index t 1 * 16 + 1 * k.val = k.val
    rw [hi.«1c»]; omega

/-- The third window's block at point t is rows 1024 (t / 8) … of the first label array. -/
theorem labelRows (c : Dev nD) (t : Fin cfg0.N) (p : Fin 1024) (k : Fin 81) :
    (iblk0 V c 2 t : Vec F S1024x81 .i32) (ix2 p k) = (V c main_arg3 : Vec F S8192x81 .i32) (ix2 (tileRow (t.cast N_0) p) k) := by
  have hi := gridIdx t
  unfold iblk0
  rw [View.read_apply]
  show V c main_arg3 _ = V c main_arg3 _
  congr 1
  funext a
  apply Fin.ext
  match a with
  | ⟨0, _⟩ =>
    show win0_2.index t 0 * 1024 + 1 * p.val = 1024 * (t.val / 8) + p.val
    rw [hi.«2r»]; omega
  | ⟨1, _⟩ =>
    show win0_2.index t 1 * 81 + 1 * k.val = k.val
    rw [hi.«2c»]; omega

/-- The fourth window's block at point t is rows 1024 (t % 8) … of the second label array. -/
theorem labelCols (c : Dev nD) (t : Fin cfg0.N) (p : Fin 1024) (k : Fin 81) :
    (iblk0 V c 3 t : Vec F S1024x81 .i32) (ix2 p k) = (V c main_arg4 : Vec F S8192x81 .i32) (ix2 (tileCol (t.cast N_0) p) k) := by
  have hi := gridIdx t
  unfold iblk0
  rw [View.read_apply]
  show V c main_arg4 _ = V c main_arg4 _
  congr 1
  funext a
  apply Fin.ext
  match a with
  | ⟨0, _⟩ =>
    show win0_3.index t 0 * 1024 + 1 * p.val = 1024 * (t.val % 8) + p.val
    rw [hi.«3r»]; omega
  | ⟨1, _⟩ =>
    show win0_3.index t 1 * 81 + 1 * k.val = k.val
    rw [hi.«3c»]; omega

end Cert.PairLoss

end
-- ==== Proof.KernelValue.lean ====
/-
  The kernel's result as a function of its five argument arrays.

  The tiles' sums, read through the windows' blocks, are sums over rows 1024 i … and 1024 j … of the argument arrays;
  the accumulators' last running sums are therefore the sums over all pairs (the pairs cut into 64 tiles); the second
  kernel finds the code arrays as launched, since the first writes only its two accumulators; and the host operations
  after the two kernels combine the four [1,1] results into (t₁₁ − t₁₂) + ½ t₂ + ½ t₃: the loss.
-/
import proofs.«158205_j39221641347692_1_alg».proof.Proof.Arrays
import proofs.«158205_j39221641347692_1_alg».proof.Proof.Blocks
import proofs.«158205_j39221641347692_1_alg».proof.Proof.KernelRun
import Idealize.ShloMosaic.Lib.StableHlo.Run

set_option maxRecDepth 16384

noncomputable section

namespace Cert.PairLoss

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The five argument arrays as launched. -/
abbrev argF (c : Dev nD) : Codes := m ((c.tc : Thread nD τ).loc main_arg0)
abbrev argG (c : Dev nD) : Codes := m ((c.tc : Thread nD τ).loc main_arg1)
abbrev argB (c : Dev nD) : Codes := m ((c.tc : Thread nD τ).loc main_arg2)
abbrev argU (c : Dev nD) : Labels := m ((c.tc : Thread nD τ).loc main_arg3)
abbrev argV (c : Dev nD) : Labels := m ((c.tc : Thread nD τ).loc main_arg4)

/-- Tile t's softplus sum is the sum over the tile's pairs of softplus(θ / 2) of the argument arrays. -/
theorem tileS_eq (c : Dev nD) (t : Fin cfg0.N) :
    tileS (V0 m ρ) c t = ∑ p : Fin 1024, ∑ q : Fin 1024,
      softplusHalf (theta (argF m c) (argG m c) (tileRow (t.cast N_0) p) (tileCol (t.cast N_0) q)) := by
  unfold tileS tileSoftplus theta
  refine Finset.sum_congr rfl fun p _ => Finset.sum_congr rfl fun q _ => congrArg softplusHalf
    (Finset.sum_congr rfl fun k _ => ?_)
  exact congrArg₂ (· * ·) (codeRows (V0 m ρ) c t p k) (codeCols (V0 m ρ) c t q k)

/-- Tile t's masked sum likewise. -/
theorem tileM_eq (c : Dev nD) (t : Fin cfg0.N) :
    tileM (V0 m ρ) c t = ∑ p : Fin 1024, ∑ q : Fin 1024,
      masked (overlap (argU m c) (argV m c) (tileRow (t.cast N_0) p) (tileCol (t.cast N_0) q))
        (theta (argF m c) (argG m c) (tileRow (t.cast N_0) p) (tileCol (t.cast N_0) q)) := by
  unfold tileM tileMasked theta overlap
  refine Finset.sum_congr rfl fun p _ => Finset.sum_congr rfl fun q _ => congrArg₂ masked
    (Finset.sum_congr rfl fun l _ => ?_) (Finset.sum_congr rfl fun k _ => ?_)
  · have e1 := labelRows (V0 m ρ) c t p l
    have e2 := labelCols (V0 m ρ) c t q l
    exact congrArg₂ (fun (a b : BitVec 32) => (((a.toInt : ℝ) : EReal)) * (((b.toInt : ℝ) : EReal))) e1 e2
  · exact congrArg₂ (· * ·) (codeRows (V0 m ρ) c t p k) (codeCols (V0 m ρ) c t q k)

/-- The first accumulator ends at the sum of softplus(θ / 2) over all pairs. -/
theorem softplus_total (c : Dev nD) :
    runSum 0 (tileS (V0 m ρ) c) 63 lastLt = pairSoftplus (argF m c) (argG m c) := by
  rw [runSum_eq, zero_add]
  unfold pairSoftplus
  rw [sum_pairs_eq_sum_tiles]
  refine Finset.sum_congr rfl fun t _ => ?_
  rw [tileS_eq]
  rfl

/-- The second accumulator ends at the sum of θ over the pairs whose labels overlap. -/
theorem masked_total (c : Dev nD) :
    runSum 0 (tileM (V0 m ρ) c) 63 lastLt = pairMasked (argF m c) (argG m c) (argU m c) (argV m c) := by
  rw [runSum_eq, zero_add]
  unfold pairMasked
  rw [sum_pairs_eq_sum_tiles]
  refine Finset.sum_congr rfl fun t _ => ?_
  rw [tileM_eq]
  rfl

/-- The second kernel finds the three code arrays as launched: the first kernel writes only its accumulators. -/
theorem entryF (c : Dev nD) : V1 m ρ c main_arg0 = argF m c :=
  (W1_arr m ρ c 0).trans (((dat0 (V0 m ρ) c).arrAt_in 0 rfl _).trans (A_eq0 (V0 m ρ) c 0))
theorem entryG (c : Dev nD) : V1 m ρ c main_arg1 = argG m c :=
  (W1_arr m ρ c 1).trans (((dat0 (V0 m ρ) c).arrAt_in 1 rfl _).trans (A_eq0 (V0 m ρ) c 1))
theorem entryB (c : Dev nD) : V1 m ρ c main_arg2 = argB m c :=
  W1_of_ne m ρ c main_arg2 (by decide)

/-- The four result arrays when the host operations start. -/
theorem res_softplus (c : Dev nD) :
    W2 m ρ c (Proc.devRef .tc main_v0_0) = fun _ => pairSoftplus (argF m c) (argG m c) :=
  (W2_of_ne m ρ c main_v0_0 (by decide)).trans ((W1_arr m ρ c 4).trans
    ((softplusArr (V0 m ρ) c).trans (funext fun _ => softplus_total m ρ c)))
theorem res_masked (c : Dev nD) :
    W2 m ρ c (Proc.devRef .tc main_v0_1) = fun _ => pairMasked (argF m c) (argG m c) (argU m c) (argV m c) :=
  (W2_of_ne m ρ c main_v0_1 (by decide)).trans ((W1_arr m ρ c 5).trans
    ((maskedArr (V0 m ρ) c).trans (funext fun _ => masked_total m ρ c)))
theorem res_quant (c : Dev nD) :
    W2 m ρ c (Proc.devRef .tc main_v1_0) = fun _ => quant (argF m c) (argG m c) (argB m c) :=
  (W2_arr m ρ c 3).trans ((quantArr (V1 m ρ) c).trans (by rw [entryF, entryG, entryB]))
theorem res_balance (c : Dev nD) :
    W2 m ρ c (Proc.devRef .tc main_v1_1) = fun _ => rowSumSq (argF m c) + rowSumSq (argG m c) :=
  (W2_arr m ρ c 4).trans ((balanceArr (V1 m ρ) c).trans (by rw [entryF, entryG]))

/-- The result buffer after the host operations: the loss of the five argument arrays. -/
theorem result_eq (c : Dev nD) :
    W3 m ρ c (Proc.devRef .tc main_v10)
      = fun _ => loss (argF m c) (argG m c) (argB m c) (argU m c) (argV m c) := by
  show StableHlo.after hostOps2 (W2 m ρ c) (Proc.devRef .tc main_v10) = _
  after_results
  rw [res_softplus, res_masked, res_quant, res_balance]
  rfl

/-- Every weakly fair execution of the idealized kernel program terminates with the result buffer at the loss of the
    argument arrays and the arguments as launched. -/
theorem kernel_run : θ_run defs (onTc (τ := τ) (main (F := Ideal))) ⟨m, fun _ => 0, ρ⟩ (fun r => ∀ c : Dev nD,
      r.2.mem ((c.tc : Thread nD τ).loc main_v10)
        = (fun _ => loss (argF m c) (argG m c) (argB m c) (argU m c) (argV m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ c), (h c).2⟩)
    (Cert.KernelIdeal.GenP.run_result (F := Ideal) m ρ)

end Cert.PairLoss

end
-- ==== Proof.RefValue.lean ====
/-
  The reference, stage by stage, is the loss.

  It forms θ = F · Gᵀ and the label overlap whole, as [8192, 8192] matrices whose entry (a, c) is a finite sum over
  the contracted axis; applies softplus(θ / 2) and the overlap mask entry by entry (its guard "x ≠ x" never fires on an
  extended real); sums each matrix over all its entries from a zero initial value, which is the double sum over rows
  and columns; sums (B − F)² + (B − G)² over all entries; squares the row sums of F and of G and sums them; and
  combines the four numbers. Each stage read at an index is the corresponding term of the specification.
-/
import proofs.«158205_j39221641347692_1_alg».proof.Proof.RefRead
import proofs.«158205_j39221641347692_1_alg».proof.Proof.Spec
import Idealize.ShloMosaic.Lib.ValueIdx
import Idealize.ShloMosaic.PureOps.Ideal.Laws

noncomputable section

namespace Cert.PairLoss

open Idealize.ShloMosaic Idealize.ShloMosaic.ValueIdx

open Cert.ReferenceIdeal Cert.ReferenceIdeal.ReadP

/-! ## The reference's composed index functions, at an index given by coordinates -/

/-- Row a of the left operand of the code product, entry k. -/
theorem lidx_v1_ix2 (a c : Fin 8192) (k : Fin 16) : lidx_main_v1 (ix2 a c) k = ix2 a k :=
  funext fun d => Fin.ext (by match d with | ⟨0, _⟩ => rfl | ⟨1, _⟩ => rfl)

/-- The transposed right operand of the code product, read back in the untransposed array: row c, entry k. -/
theorem ridx_v1_ix2 (a c : Fin 8192) (k : Fin 16) : idx_main_v0 (ridx_main_v1 (ix2 a c) k) = ix2 c k :=
  funext fun d => Fin.ext (by match d with | ⟨0, _⟩ => rfl | ⟨1, _⟩ => rfl)

/-- Row a of the left operand of the label product, word l. -/
theorem lidx_v9_ix2 (a c : Fin 8192) (l : Fin 81) : lidx_main_v9 (ix2 a c) l = ix2 a l :=
  funext fun d => Fin.ext (by match d with | ⟨0, _⟩ => rfl | ⟨1, _⟩ => rfl)

/-- The transposed right operand of the label product, read back in the untransposed array: row c, word l. -/
theorem ridx_v9_ix2 (a c : Fin 8192) (l : Fin 81) : idx_main_v8 (ridx_main_v9 (ix2 a c) l) = ix2 c l :=
  funext fun d => Fin.ext (by match d with | ⟨0, _⟩ => rfl | ⟨1, _⟩ => rfl)

/-! ## θ and the overlap at a pair -/

/-- The code product at the pair (a, c) is θ(a, c). -/
theorem theta_at (x0 x1 : Codes) (a c : Fin 8192) :
    val_main_v1 (F := Ideal) x0 x1 (ix2 a c) = theta x0 x1 a c := by
  rw [val_main_v1_apply]
  unfold theta
  refine Finset.sum_congr rfl fun k _ => ?_
  rw [val_main_v0_apply, lidx_v1_ix2, ridx_v1_ix2]

/-- The label product at the pair (a, c) is the overlap o(a, c). -/
theorem overlap_at (x3 x4 : Labels) (a c : Fin 8192) :
    val_main_v9 (F := Ideal) x3 x4 (ix2 a c) = overlap x3 x4 a c := by
  rw [val_main_v9_apply]
  unfold overlap
  refine Finset.sum_congr rfl fun l _ => ?_
  rw [val_main_v6_apply, val_main_v8_apply, val_main_v7_apply, lidx_v9_ix2, ridx_v9_ix2]
  rfl

/-! ## The two stages summed over the pairs -/

/-- An extended real is never different from itself: the reference's not-a-number guard is the zero bit. -/
theorem cmp_une_self (d : EReal) : Ideal.cmp .une d d = 0#1 := by
  simp [Ideal.cmp]

/-- The softplus stage at the pair (a, c): the guard's select takes its second branch, which is
    max(y, 0) + log1p(exp(−|y − 0|)) at y = θ(a, c) · ½. -/
theorem softplus_at (x0 x1 : Codes) (a c : Fin 8192) :
    val_main_v4 (F := Ideal) x0 x1 (ix2 a c) = softplusHalf (theta x0 x1 a c) := by
  rw [val_main_v4_apply, val_main_call0_v4_apply, Ideal.cmpf_def, cmp_une_self, select_zero]
  simp only [val_main_call0_v11_apply, val_main_call0_v1_apply, val_main_call0_v10_apply, val_main_call0_v9_apply,
    val_main_call0_v8_apply, val_main_call0_v7_apply, val_main_call0_v3_apply, val_main_v3_apply,
    val_main_call0_v0_apply, val_main_call0_v2_apply, val_main_call0_cst_apply, val_main_v2_apply,
    val_main_cst_apply, theta_at, Ideal.addf_def, Ideal.maximumf_def, Ideal.mulf_def, Ideal.subf_def,
    Ideal.hostUnary_log1p_def, Ideal.hostUnary_exp_def, Ideal.hostNegf_def, Ideal.negf_def, Ideal.hostAbsf_def,
    Ideal.absf_def, Ideal.ofBits_def, Ideal.ofBits_zero_f32]
  rfl

/-- The masked stage at the pair (a, c): θ(a, c) where the overlap is positive, else 0. -/
theorem masked_at (x0 x1 : Codes) (x3 x4 : Labels) (a c : Fin 8192) :
    val_main_v12 (F := Ideal) x0 x1 x3 x4 (ix2 a c) = masked (overlap x3 x4 a c) (theta x0 x1 a c) := by
  simp only [val_main_v12_apply, val_main_v11_apply, val_main_v10_apply, val_main_cst_1_apply,
    val_main_call1_v0_apply, val_main_cst_2_apply, theta_at, overlap_at, Ideal.cmpf_def, Ideal.ofBits_def,
    Ideal.ofBits_zero_f32]
  rfl

/-! ## The five sums -/

/-- A sum over a rank-1 index set is the sum over its coordinate. -/
theorem sum_rank1 {M : Type*} [AddCommMonoid M] {n : Nat} (f : (⟨1, ![n]⟩ : Shape).Idx → M) :
    ∑ j, f j = ∑ a : Fin n, f (ix1 a) := by
  let e : Fin n ≃ (⟨1, ![n]⟩ : Shape).Idx :=
    { toFun := fun a => ix1 a, invFun := fun j => j 0, left_inv := fun _ => rfl, right_inv := fun j => (eq_ix1 j).symm }
  exact (Equiv.sum_comp e f).symm

/-- The first sum is the sum of softplus(θ / 2) over all pairs. -/
theorem pairSoftplus_at (x0 x1 : Codes) (i : S_.Idx) :
    val_main_v5 (F := Ideal) x0 x1 i = pairSoftplus x0 x1 := by
  rw [val_main_v5_apply, val_main_cst_0_apply, Ideal.ofBits_def, Ideal.ofBits_zero_f32, zero_add, sum_idx2]
  unfold pairSoftplus
  exact Finset.sum_congr rfl fun a _ => Finset.sum_congr rfl fun c _ => softplus_at x0 x1 a c

/-- The second sum is the sum of θ over the pairs whose labels overlap. -/
theorem pairMasked_at (x0 x1 : Codes) (x3 x4 : Labels) (i : S_.Idx) :
    val_main_v13 (F := Ideal) x0 x1 x3 x4 i = pairMasked x0 x1 x3 x4 := by
  rw [val_main_v13_apply, val_main_cst_3_apply, Ideal.ofBits_def, Ideal.ofBits_zero_f32, zero_add, sum_idx2]
  unfold pairMasked
  exact Finset.sum_congr rfl fun a _ => Finset.sum_congr rfl fun c _ => masked_at x0 x1 x3 x4 a c

/-- The third sum is the quantization term. -/
theorem quant_at (x0 x1 x2 : Codes) (i : S_.Idx) :
    val_main_v20 (F := Ideal) x0 x1 x2 i = quant x0 x1 x2 := by
  rw [val_main_v20_apply, val_main_cst_4_apply, Ideal.ofBits_def, Ideal.ofBits_zero_f32, zero_add, sum_idx2]
  unfold quant
  refine Finset.sum_congr rfl fun a _ => Finset.sum_congr rfl fun k _ => ?_
  simp only [val_main_v19_apply, val_main_v16_apply, val_main_v18_apply, val_main_v15_apply, val_main_v17_apply,
    Ideal.addf_def, Ideal.mulf_def, Ideal.subf_def]

/-- The row-sum stages read row a, entry k. -/
theorem idx_v21_ix1 (a : Fin 8192) (k : Fin 16) : idx_main_v21 (ix1 a) k = ix2 a k :=
  funext fun d => Fin.ext (by match d with | ⟨0, _⟩ => rfl | ⟨1, _⟩ => rfl)
theorem idx_v24_ix1 (a : Fin 8192) (k : Fin 16) : idx_main_v24 (ix1 a) k = ix2 a k :=
  funext fun d => Fin.ext (by match d with | ⟨0, _⟩ => rfl | ⟨1, _⟩ => rfl)

/-- The row sum of the first code array at sample a: the zero it starts from adds nothing. -/
theorem rowsum_v21_at (x0 : Codes) (a : Fin 8192) :
    val_main_v21 (F := Ideal) x0 (ix1 a) = ∑ k : Fin 16, x0 (ix2 a k) := by
  rw [val_main_v21_apply, val_main_cst_5_apply, Ideal.ofBits_def, Ideal.ofBits_zero_f32, zero_add]
  exact Finset.sum_congr rfl fun k _ => by rw [idx_v21_ix1]

/-- The row sum of the second code array at sample a. -/
theorem rowsum_v24_at (x1 : Codes) (a : Fin 8192) :
    val_main_v24 (F := Ideal) x1 (ix1 a) = ∑ k : Fin 16, x1 (ix2 a k) := by
  rw [val_main_v24_apply, val_main_cst_7_apply, Ideal.ofBits_def, Ideal.ofBits_zero_f32, zero_add]
  exact Finset.sum_congr rfl fun k _ => by rw [idx_v24_ix1]

/-- The fourth sum is the sum of the squared row sums of the first code array. -/
theorem rowSumSq_v23_at (x0 : Codes) (i : S_.Idx) :
    val_main_v23 (F := Ideal) x0 i = rowSumSq x0 := by
  rw [val_main_v23_apply, val_main_cst_6_apply, Ideal.ofBits_def, Ideal.ofBits_zero_f32, zero_add, sum_rank1]
  unfold rowSumSq
  refine Finset.sum_congr rfl fun a _ => ?_
  rw [val_main_v22_apply, Ideal.mulf_def, rowsum_v21_at]

/-- The fifth sum is the sum of the squared row sums of the second code array. -/
theorem rowSumSq_v26_at (x1 : Codes) (i : S_.Idx) :
    val_main_v26 (F := Ideal) x1 i = rowSumSq x1 := by
  rw [val_main_v26_apply, val_main_cst_8_apply, Ideal.ofBits_def, Ideal.ofBits_zero_f32, zero_add, sum_rank1]
  unfold rowSumSq
  refine Finset.sum_congr rfl fun a _ => ?_
  rw [val_main_v25_apply, Ideal.mulf_def, rowsum_v24_at]

/-- The reference's result, stage by stage, is the loss of its five arguments. -/
theorem ref_value (x0 x1 x2 : Codes) (x3 x4 : Labels) (i : Cert.ReferenceIdeal.S_.Idx) :
    Cert.ReferenceIdeal.ReadP.val_main_v31 (F := Ideal) x0 x1 x2 x3 x4 i = loss x0 x1 x2 x3 x4 := by
  rw [val_main_v31_apply, val_main_v29_apply, val_main_v30_apply, val_main_v14_apply, val_main_v28_apply,
    val_main_v27_apply, val_main_cst_9_apply, val_main_cst_10_apply, pairSoftplus_at, pairMasked_at, quant_at,
    rowSumSq_v23_at, rowSumSq_v26_at]
  simp only [Ideal.addf_def, Ideal.subf_def, Ideal.mulf_def, Ideal.ofBits_def]
  rfl

end Cert.PairLoss

end
-- ==== Proof.lean ====
/-
  The kernel computes a pairwise hashing loss of three [8192, 16] code arrays F, G, B and two [8192, 81] integer label
  arrays U, V, and so does the reference:

    loss = ( ∑ₐ ∑_c softplus(θ(a, c) / 2) − ∑ₐ ∑_c [o(a, c) > 0] θ(a, c) ) + ½ ∑ ((B − F)² + (B − G)²)
           + ½ ( ∑ₐ (∑ₖ F(a, k))² + ∑ₐ (∑ₖ G(a, k))² ),     θ(a, c) = ⟨F_a, G_c⟩,  o(a, c) = ⟨U_a, V_c⟩.

  The kernel never forms the [8192, 8192] matrices θ and o: its first pallas_call walks the 64 tiles of 1024 × 1024
  pairs, forms each tile's θ and o by a matrix product of row blocks, sums the tile and adds the sum into two [1, 1]
  accumulators that it resets at the first tile; its second pallas_call computes the two terms over the whole code
  arrays; four scalar host operations combine the four results. The reference forms θ and o whole and sums them whole.
  Over the extended reals the two agree because a finite sum may be cut into tiles and accumulated tile by tile:
  only commutativity and associativity of + are used, so the precondition is never opened. Entry by entry the two
  sides apply the same exact operations (a change of float format is the identity; an integer converts to itself
  whatever the target format; the guard "x ≠ x" is false on every extended real in both spellings; 0 − y is −y).

  Modules: Spec (the loss, the tiling of a double sum, the running sum), Tile and Whole (each kernel body's arithmetic
  as the specification's sums), Pieces (what each run of a body leaves in its output blocks), Blocks (a window's block
  as rows of its array), Accum (the accumulators across the grid, by induction on the point), Arrays (the four result
  arrays), KernelRun and KernelValue (the kernel program's run with its result named, and that result as the loss),
  RefRun / RefRead and RefValue (the reference's run, its stages, and its result as the loss).
-/
import proofs.«158205_j39221641347692_1_alg».proof.Defs
import proofs.«158205_j39221641347692_1_alg».proof.Proof.Gen.Kernel
import proofs.«158205_j39221641347692_1_alg».proof.Proof.Gen.Kernel.Skeleton
import proofs.«158205_j39221641347692_1_alg».proof.Proof.Gen.Kernel.Launch
import proofs.«158205_j39221641347692_1_alg».proof.Proof.Gen.Kernel.Points
import proofs.«158205_j39221641347692_1_alg».proof.Proof.Gen.Kernel.Frame
import proofs.«158205_j39221641347692_1_alg».proof.Proof.Gen.KernelIdeal
import proofs.«158205_j39221641347692_1_alg».proof.Proof.Gen.KernelIdeal.Skeleton
import proofs.«158205_j39221641347692_1_alg».proof.Proof.Gen.KernelIdeal.Launch
import proofs.«158205_j39221641347692_1_alg».proof.Proof.Gen.KernelIdeal.Points
import proofs.«158205_j39221641347692_1_alg».proof.Proof.Gen.KernelIdeal.Frame
import proofs.«158205_j39221641347692_1_alg».proof.Proof.Gen.ReferenceIdeal
import proofs.«158205_j39221641347692_1_alg».proof.Proof.Gen.Pre_finite_inputs
import proofs.«158205_j39221641347692_1_alg».proof.Proof.KernelValue
import proofs.«158205_j39221641347692_1_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the loss of their argument arrays, and the arguments agree. -/
theorem algebraic : Cert.algebraic_KernelIdeal_ReferenceIdeal := by
  intro m ρ m' ρ' _ hagree
  refine ⟨fun c _ => Cert.PairLoss.loss (Cert.PairLoss.argF m c) (Cert.PairLoss.argG m c) (Cert.PairLoss.argB m c)
    (Cert.PairLoss.argU m c) (Cert.PairLoss.argV m c), Cert.PairLoss.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v31_eq, (hagree c).1, (hagree c).2.1, (hagree c).2.2.1, (hagree c).2.2.2.1,
    (hagree c).2.2.2.2]
  funext i
  exact Cert.PairLoss.ref_value _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
